-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S30000000 : Shape := ⟨1, ![30000000]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S30000000 : S_.BroadcastsInDim S30000000 (![] : Fin 0 → Fin S30000000.rank)
  reducesTo_S30000000_S_d0 : S30000000.ReducesTo [0] S_

variable [Facts]

def fn {F : FTy → Type} [FloatOps F] (main_arg0 : FVec F S256x256 .f32) (main_arg1 : IVec S30000000 32) (main_arg2 : IVec S30000000 32) (main_arg3 : FVec F S30000000 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S30000000 .f32 := Host.absf main_arg3
  let main_cst_0 : FVec F S_ .f32 := constant S_ .f32 0x7F800000#32
  let main_v5 : FVec F S30000000 .f32 := broadcastInDim S30000000 ![] bcast_S_S30000000 main_cst_0
  let main_v6 : IVec S30000000 1 := cmpf .olt main_v4 main_v5
  let main_c_1 : IVec S_ 1 := constantI S_ 1 1#1
  let main_v7 : IVec S_ 1 := (fun x v => Host.reduce IntOp.andi x v reducesTo_S30000000_S_d0 h_S_) main_v6 main_c_1
  let main_v8 : IVec S_ 1 := andi main_v3 main_v7
  main_v8
-- ==== Kernel.lean ====
abbrev S256x256 : Shape := ⟨2, ![256, 256]⟩
abbrev S30000000 : Shape := ⟨1, ![30000000]⟩
abbrev S65536 : Shape := ⟨1, ![65536]⟩
abbrev S_ : Shape := ⟨0, ![]⟩
abbrev S30000000x1 : Shape := ⟨2, ![30000000, 1]⟩
abbrev S1 : Shape := ⟨1, ![1]⟩
abbrev S1x1 : Shape := ⟨2, ![1, 1]⟩
abbrev S30408704 : Shape := ⟨1, ![30408704]⟩
abbrev S237568x128 : Shape := ⟨2, ![237568, 128]⟩
abbrev S8192x128 : Shape := ⟨2, ![8192, 128]⟩
abbrev S131072 : Shape := ⟨1, ![131072]⟩
abbrev S1024x128 : Shape := ⟨2, ![1024, 128]⟩

abbrev nBuf : Space → Nat
  | .hbm => 47
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S30000000, .i32⟩
  | .hbm, ⟨2, _⟩ => ⟨S30000000, .i32⟩
  | .hbm, ⟨3, _⟩ => ⟨S30000000, .f32⟩
  | .hbm, ⟨4, _⟩ => ⟨S256x256, .f32⟩
  | .hbm, ⟨5, _⟩ => ⟨S65536, .f32⟩
  | .hbm, ⟨6, _⟩ => ⟨S_, .i32⟩
  | .hbm, ⟨7, _⟩ => ⟨S30000000, .i32⟩
  | .hbm, ⟨8, _⟩ => ⟨S30000000, .i1⟩
  | .hbm, ⟨9, _⟩ => ⟨S_, .i32⟩
  | .hbm, ⟨10, _⟩ => ⟨S30000000, .i32⟩
  | .hbm, ⟨11, _⟩ => ⟨S30000000, .i32⟩
  | .hbm, ⟨12, _⟩ => ⟨S30000000, .i32⟩
  | .hbm, ⟨13, _⟩ => ⟨S30000000x1, .i32⟩
  | .hbm, ⟨14, _⟩ => ⟨S1, .i32⟩
  | .hbm, ⟨15, _⟩ => ⟨S_, .i32⟩
  | .hbm, ⟨16, _⟩ => ⟨S30000000x1, .i32⟩
  | .hbm, ⟨17, _⟩ => ⟨S30000000x1, .i1⟩
  | .hbm, ⟨18, _⟩ => ⟨S1x1, .i32⟩
  | .hbm, ⟨19, _⟩ => ⟨S30000000x1, .i32⟩
  | .hbm, ⟨20, _⟩ => ⟨S30000000x1, .i1⟩
  | .hbm, ⟨21, _⟩ => ⟨S30000000x1, .i1⟩
  | .hbm, ⟨22, _⟩ => ⟨S_, .i1⟩
  | .hbm, ⟨23, _⟩ => ⟨S30000000, .i1⟩
  | .hbm, ⟨24, _⟩ => ⟨S30000000, .f32⟩
  | .hbm, ⟨25, _⟩ => ⟨S_, .f32⟩
  | .hbm, ⟨26, _⟩ => ⟨S30000000, .f32⟩
  | .hbm, ⟨27, _⟩ => ⟨S30000000, .f32⟩
  | .hbm, ⟨28, _⟩ => ⟨S_, .i32⟩
  | .hbm, ⟨29, _⟩ => ⟨S_, .f32⟩
  | .hbm, ⟨30, _⟩ => ⟨S30408704, .f32⟩
  | .hbm, ⟨31, _⟩ => ⟨S_, .i32⟩
  | .hbm, ⟨32, _⟩ => ⟨S_, .f32⟩
  | .hbm, ⟨33, _⟩ => ⟨S30408704, .f32⟩
  | .hbm, ⟨34, _⟩ => ⟨S237568x128, .f32⟩
  | .hbm, ⟨35, _⟩ => ⟨S237568x128, .f32⟩
  | .hbm, ⟨36, _⟩ => ⟨S237568x128, .f32⟩
  | .hbm, ⟨37, _⟩ => ⟨S30408704, .f32⟩
  | .hbm, ⟨38, _⟩ => ⟨S30000000, .f32⟩
  | .hbm, ⟨39, _⟩ => ⟨S_, .f32⟩
  | .hbm, ⟨40, _⟩ => ⟨S131072, .f32⟩
  | .hbm, ⟨41, _⟩ => ⟨S30000000x1, .i32⟩
  | .hbm, ⟨42, _⟩ => ⟨S131072, .f32⟩
  | .hbm, ⟨43, _⟩ => ⟨S_, .f32⟩
  | .hbm, ⟨44, _⟩ => ⟨S131072, .f32⟩
  | .hbm, ⟨45, _⟩ => ⟨S131072, .f32⟩
  | .hbm, ⟨46, _⟩ => ⟨S1024x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_c : Ref sig .tc := ⟨.hbm, 28, rfl⟩
abbrev main_call1_v0 : Ref sig .tc := ⟨.hbm, 29, rfl⟩
abbrev main_v3 : Ref sig .tc := ⟨.hbm, 30, rfl⟩
abbrev main_c_0 : Ref sig .tc := ⟨.hbm, 31, rfl⟩
abbrev main_call2_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256_S256x256_1_0 : S256x256.Transposes [1, 0] S256x256
  shapeCasts_S256x256_S65536 : S256x256.ShapeCasts S65536
  bcast_S_S30000000 : S_.BroadcastsInDim S30000000 (![] : Fin 0 → Fin S30000000.rank)
  bcast_S30000000_S30000000x1_0 : S30000000.BroadcastsInDim S30000000x1 (![0] : Fin 1 → Fin S30000000x1.rank)
  bcast_S_S30000000x1 : S_.BroadcastsInDim S30000000x1 (![] : Fin 0 → Fin S30000000x1.rank)
  bcast_S1_S1x1_1 : S1.BroadcastsInDim S1x1 (![1] : Fin 1 → Fin S1x1.rank)
  bcast_S1x1_S30000000x1_0_1 : S1x1.BroadcastsInDim S30000000x1 (![0, 1] : Fin 2 → Fin S30000000x1.rank)
  reducesTo_S30000000x1_S30000000_d1 : S30000000x1.ReducesTo [1] S30000000
  h_S_ : 0 < S_.numel
  pads_S30000000_S30408704_04087040 : S30000000.Pads (![0] : Fin 1 → Nat) ![408704] ![0] S30408704
  shapeCasts_S30408704_S237568x128 : S30408704.ShapeCasts S237568x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S237568x128_S30408704 : S237568x128.ShapeCasts S30408704
  slices_S30408704_S30000000_0 : S30408704.Slices ![0] S30000000
  bcast_S_S131072 : S_.BroadcastsInDim S131072 (![] : Fin 0 → Fin S131072.rank)
  shapeCasts_S131072_S1024x128 : S131072.ShapeCasts S1024x128
  gather_S65536_S30000000x1_S30000000_n_0_n_n_0_1_1_wf : GatherDims.WF S65536 S30000000x1 S30000000 [] [0] [] [0] [] 1 ![1]
  scatter_S131072_S30000000x1_S30000000_n_0_0_1_wf : ScatterDims.WF S131072 S30000000x1 S30000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S237568x128.size a
  hwx0_0 : ∀ i : grid0.Coords, EltTy.bits .f32 = 32 ∨ (Rect.block (s := S237568x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S237568x128.size a
  hwx0_1 : ∀ i : grid0.Coords, EltTy.bits .f32 = 32 ∨ (Rect.block (s := S237568x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S237568x128.size a
  hwx0_2 : ∀ i : grid0.Coords, EltTy.bits .f32 = 32 ∨ (Rect.block (s := S237568x128) S8192x128.size (cc0_transform_2 i) (hinb0_2 i)).WholeWords (EltTy.packing .f32)

variable [Facts₀]

def gather_S65536_S30000000x1_S30000000_n_0_n_n_0_1_1 : GatherDims S65536 S30000000x1 S30000000 where
  offsetDims := []
  collapsedSliceDims := [0]
  operandBatchingDims := []
  startIndicesBatchingDims := []
  startIndexMap := [0]
  indexVectorDim := 1
  sliceSizes := ![1]
  wf := gather_S65536_S30000000x1_S30000000_n_0_n_n_0_1_1_wf
def scatter_S131072_S30000000x1_S30000000_n_0_0_1 : ScatterDims S131072 S30000000x1 S30000000 where
  updateWindowDims := []
  insertedWindowDims := [0]
  scatterDimsToOperandDims := [0]
  indexVectorDim := 1
  wf := scatter_S131072_S30000000x1_S30000000_n_0_0_1_wf

abbrev win0_0 : Pipeline.Window sig grid0 :=
  Pipeline.Window.ofSpec (Memref.whole main_v5) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256 : Shape := ⟨2, ![256, 256]⟩
abbrev S30000000 : Shape := ⟨1, ![30000000]⟩
abbrev S65536 : Shape := ⟨1, ![65536]⟩
abbrev S_ : Shape := ⟨0, ![]⟩
abbrev S30000000x1 : Shape := ⟨2, ![30000000, 1]⟩
abbrev S1 : Shape := ⟨1, ![1]⟩
abbrev S1x1 : Shape := ⟨2, ![1, 1]⟩
abbrev S131072 : Shape := ⟨1, ![131072]⟩
abbrev S1024x128 : Shape := ⟨2, ![1024, 128]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S30000000, .i32⟩
  | .hbm, ⟨2, _⟩ => ⟨S30000000, .i32⟩
  | .hbm, ⟨3, _⟩ => ⟨S30000000, .f32⟩
  | .hbm, ⟨4, _⟩ => ⟨S256x256, .f32⟩
  | .hbm, ⟨5, _⟩ => ⟨S65536, .f32⟩
  | .hbm, ⟨6, _⟩ => ⟨S_, .i32⟩
  | .hbm, ⟨7, _⟩ => ⟨S30000000, .i32⟩
  | .hbm, ⟨8, _⟩ => ⟨S30000000, .i1⟩
  | .hbm, ⟨9, _⟩ => ⟨S_, .i32⟩
  | .hbm, ⟨10, _⟩ => ⟨S30000000, .i32⟩
  | .hbm, ⟨11, _⟩ => ⟨S30000000, .i32⟩
  | .hbm, ⟨12, _⟩ => ⟨S30000000, .i32⟩
  | .hbm, ⟨13, _⟩ => ⟨S30000000x1, .i32⟩
  | .hbm, ⟨14, _⟩ => ⟨S1, .i32⟩
  | .hbm, ⟨15, _⟩ => ⟨S_, .i32⟩
  | .hbm, ⟨16, _⟩ => ⟨S30000000x1, .i32⟩
  | .hbm, ⟨17, _⟩ => ⟨S30000000x1, .i1⟩
  | .hbm, ⟨18, _⟩ => ⟨S1x1, .i32⟩
  | .hbm, ⟨19, _⟩ => ⟨S30000000x1, .i32⟩
  | .hbm, ⟨20, _⟩ => ⟨S30000000x1, .i1⟩
  | .hbm, ⟨21, _⟩ => ⟨S30000000x1, .i1⟩
  | .hbm, ⟨22, _⟩ => ⟨S_, .i1⟩
  | .hbm, ⟨23, _⟩ => ⟨S30000000, .i1⟩
  | .hbm, ⟨24, _⟩ => ⟨S30000000, .f32⟩
  | .hbm, ⟨25, _⟩ => ⟨S_, .f32⟩
  | .hbm, ⟨26, _⟩ => ⟨S30000000, .f32⟩
  | .hbm, ⟨27, _⟩ => ⟨S30000000, .f32⟩
  | .hbm, ⟨28, _⟩ => ⟨S30000000, .f32⟩
  | .hbm, ⟨29, _⟩ => ⟨S_, .f32⟩
  | .hbm, ⟨30, _⟩ => ⟨S131072, .f32⟩
  | .hbm, ⟨31, _⟩ => ⟨S30000000x1, .i32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S1024x128, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩

abbrev nD : Nat := 1
abbrev τ : Topo := Topo.v7x

variable {F : FTy → Type} [FloatOps F]

class Facts₀ : Prop where
  transposes_S256x256_S256x256_1_0 : S256x256.Transposes [1, 0] S256x256
  shapeCasts_S256x256_S65536 : S256x256.ShapeCasts S65536
  bcast_S_S30000000 : S_.BroadcastsInDim S30000000 (![] : Fin 0 → Fin S30000000.rank)
  bcast_S30000000_S30000000x1_0 : S30000000.BroadcastsInDim S30000000x1 (![0] : Fin 1 → Fin S30000000x1.rank)
  bcast_S_S30000000x1 : S_.BroadcastsInDim S30000000x1 (![] : Fin 0 → Fin S30000000x1.rank)
  bcast_S1_S1x1_1 : S1.BroadcastsInDim S1x1 (![1] : Fin 1 → Fin S1x1.rank)
  bcast_S1x1_S30000000x1_0_1 : S1x1.BroadcastsInDim S30000000x1 (![0, 1] : Fin 2 → Fin S30000000x1.rank)
  reducesTo_S30000000x1_S30000000_d1 : S30000000x1.ReducesTo [1] S30000000
  h_S_ : 0 < S_.numel
  bcast_S_S131072 : S_.BroadcastsInDim S131072 (![] : Fin 0 → Fin S131072.rank)
  shapeCasts_S131072_S1024x128 : S131072.ShapeCasts S1024x128
  gather_S65536_S30000000x1_S30000000_n_0_n_n_0_1_1_wf : GatherDims.WF S65536 S30000000x1 S30000000 [] [0] [] [0] [] 1 ![1]
  scatter_S131072_S30000000x1_S30000000_n_0_0_1_wf : ScatterDims.WF S131072 S30000000x1 S30000000 [] [0] [0] 1

variable [Facts₀]

def gather_S65536_S30000000x1_S30000000_n_0_n_n_0_1_1 : GatherDims S65536 S30000000x1 S30000000 where
  offsetDims := []
  collapsedSliceDims := [0]
  operandBatchingDims := []
  startIndicesBatchingDims := []
  startIndexMap := [0]
  indexVectorDim := 1
  sliceSizes := ![1]
  wf := gather_S65536_S30000000x1_S30000000_n_0_n_n_0_1_1_wf
def scatter_S131072_S30000000x1_S30000000_n_0_0_1 : ScatterDims S131072 S30000000x1 S30000000 where
  updateWindowDims := []
  insertedWindowDims := [0]
  scatterDimsToOperandDims := [0]
  indexVectorDim := 1
  wf := scatter_S131072_S30000000x1_S30000000_n_0_0_1_wf

class Facts : Prop extends Facts₀ where

variable [Facts]
-- ==== Proof.ProductArray.lean ====
/-
  The region multiplies two [237568, 128] arrays entry by entry, 8192 rows at a time: at grid point `t` (of 29) each of
  the three windows is on rows [8192·t, 8192·t + 8192) of its array, all 128 columns, the body loads the two input
  blocks whole and stores their entrywise product over the whole output block, and that block is written back. The 29
  blocks are disjoint bands of rows that together are all 237568 rows, so after the last point every entry (r, l) of
  the output array is  a(r, l) · b(r, l)  of the two input arrays as the region found them. Holds at every float
  instance: nothing is used of the product but that it is taken entrywise.
-/
import proofs.«182078_j86792699117905_1_alg».proof.Proof.Gen.KernelIdeal.Frame
import Idealize.ShloMosaic.Lib.Pipeline.Value

set_option maxRecDepth 16384

noncomputable section

namespace Cert.KernelIdeal.ProductArray

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block's corner inside its staging buffer is the origin. -/
theorem corner : (![0, 0] : Fin 2 → Nat) = fun _ => 0 := funext fun a => by fin_cases a <;> rfl

/-- The entrywise product of two [237568, 128] arrays. -/
abbrev entrywise (a b : S237568x128.Idx → Elt F .f32) : S237568x128.Idx → Elt F .f32 :=
  fun i => FloatOps.mulf (a i) (b i)

/-- What the body stores is the entrywise product of the two blocks it loaded (the two reshapes to the same shape
    change nothing). -/
theorem stored_eq (x0 x1 : Vec F S8192x128 .f32) : k0_pay1 x0 x1 = mulf x0 x1 := by
  show mulf (shapeCast S8192x128 x0 shapeCasts_S8192x128_S8192x128) (shapeCast S8192x128 x1 shapeCasts_S8192x128_S8192x128) = _
  rw [shapeCast_self, shapeCast_self]

/-- At every grid point the three windows are on the same band of rows (block row index equal, block column index 0),
    and the band's index is one of 0 … 28. -/
theorem same_band : ∀ t : Fin cfg0.N, win0_0.index t (0 : Fin 2) = win0_2.index t (0 : Fin 2) + 0
    ∧ win0_0.index t (1 : Fin 2) = win0_2.index t (1 : Fin 2) + 0
    ∧ win0_1.index t (0 : Fin 2) = win0_2.index t (0 : Fin 2) + 0
    ∧ win0_1.index t (1 : Fin 2) = win0_2.index t (1 : Fin 2) + 0
    ∧ 0 ≤ win0_2.index t (0 : Fin 2) ∧ win0_2.index t (0 : Fin 2) ≤ 28
    ∧ 0 ≤ win0_2.index t (1 : Fin 2) ∧ win0_2.index t (1 : Fin 2) ≤ 0 :=
  (by decide +kernel : ∀ t : Fin grid0.N, _)

/-- Every band of rows is some point's. -/
theorem band_of_point : ∀ (q0 : Fin 29) (q1 : Fin 1), ∃ t : Fin cfg0.N, win0_2.index t = ![q0.val + 0, q1.val + 0] :=
  (by decide +kernel : ∀ (q0 : Fin 29) (q1 : Fin 1), ∃ t : Fin grid0.N, win0_2.index t = ![q0.val + 0, q1.val + 0])

/-- What point `t` writes back is band `t` of the entrywise product of the two input arrays. -/
theorem written_back (c : Dev nD) (t : Fin cfg0.N) :
    (dats m 0 c).flushed 2 t = ((cfg0.win 2).blk t).view.read (Elt F) (entrywise (V m c main_v5) (V m c main_v6)) := by
  show (cfg0.win 2).cut (grid0.coords t) ((dats m 0 c).after 2 t) = _
  rw [after0_2]
  unfold out0_2
  rw [View.canon_unit_zero corner]
  simp only [View.ld_unit_zero (S := S8192x128) corner]
  rw [stored_eq]
  obtain ⟨e0, e1, e2, e3, e4, e5⟩ := same_band t
  funext j
  show FloatOps.mulf (V m c main_v5 (((cfg0.win 0).blk t).view.emb j)) (V m c main_v6 (((cfg0.win 1).blk t).view.emb j)) = FloatOps.mulf (V m c main_v5 (((cfg0.win 2).blk t).view.emb j)) (V m c main_v6 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An entry of the output array is in point `t`'s band iff each coordinate is in the band's range on its axis. -/
theorem mem_band (t : Fin cfg0.N) (i : S237568x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v7).slice (win0_2.rect t)).set ↔ _
  rw [View.set_slice_whole, Rect.mem_set_unit]
  exact Iff.rfl

/-- Every entry of the output array is in the band of the point  row / 8192 , which writes it back. -/
theorem every_entry_written (i : S237568x128.Idx) :
    ∃ t : Fin cfg0.N, (cfg0.win 2).flush t = true ∧ i ∈ ((cfg0.win 2).blk t).view.set := by
  have hi0 : (i 0).val < 237568 := (i 0).isLt
  have hi1 : (i 1).val < 128 := (i 1).isLt
  obtain ⟨t, ht⟩ := band_of_point ⟨(i 0).val / 8192, by omega⟩ ⟨(i 1).val / 128, by omega⟩
  have q0 : win0_2.index t (0 : Fin 2) = (i 0).val / 8192 + 0 := congrFun ht 0
  have q1 : win0_2.index t (1 : Fin 2) = (i 1).val / 128 + 0 := congrFun ht 1
  refine ⟨t, flush0_2 t, ?_⟩
  rw [mem_band]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the last point: the entrywise product of the two input arrays as the region found them. -/
theorem product_array (c : Dev nD) :
    (dats m 0 c).arrAt 2 cfg0.N = entrywise (V m c main_v5) (V m c main_v6) :=
  (dats m 0 c).arrAt_eq_of_cover 2 _ (fun t _ => written_back m c t) every_entry_written

end Cert.KernelIdeal.ProductArray

end
-- ==== Proof.LibPadSlice.lean ====
/-
  Two facts about re-laying a vector, generic in the sizes and in the float instance.

  * A vector of `n` entries lengthened to `m` by padding at its HIGH end and then cut back to its first `n` entries
    is the vector itself: entry `j` of the cut is entry `j` of the padded vector, which lies inside the operand.
  * A reshape only renames positions, so it commutes with an entrywise product.

  Together (`mulf_through_padded_relay`): an entrywise product taken on operands that were padded at the high end and
  re-laid to another shape, re-laid back and cut to the first `n` entries, is the entrywise product of the operands —
  the padding entries are multiplied too, and then thrown away.
-/
import Idealize.ShloMosaic.PureOps
import Idealize.ShloMosaic.Lib.ValueIdx
import Idealize.ShloMosaic.Lib.Pipeline.Value
import Idealize.ShloMosaic.Lib.KernelVsHost
import Idealize.ShloMosaic.Lib.LayoutPointwise

namespace Cert.LibPadSlice

open Idealize.ShloMosaic Idealize.ShloMosaic.ValueIdx

variable {F : FTy → Type} [FloatOps F] {φ : FTy} {α : Type}

/-- A reshape of an entrywise product is the entrywise product of the reshapes: both read the operands at the index
    with the same row-major position. -/
theorem shapeCast_mulf {s t : Shape} (h : s.ShapeCasts t) (a b : FVec F s φ) :
    shapeCast t (mulf a b) h = mulf (shapeCast t a h) (shapeCast t b h) := rfl

/-- A vector padded at its high end (nothing in front, nothing between entries) and cut back to its own length is
    itself: entry `j` of the cut is entry `0 + j` of the padded vector, and that is entry `j` of the operand. -/
theorem slice_pad_high {n m : Nat} (hi : Nat) (x : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (hsl : (⟨1, ![m]⟩ : Shape).Slices ![0] ⟨1, ![n]⟩) :
    extractStridedSlice ⟨1, ![n]⟩ ![0] (pad ⟨1, ![m]⟩ ![0] ![hi] ![0] x v hp hu) hsl = x := by
  funext j
  obtain ⟨a, rfl⟩ : ∃ a : Fin n, j = ix1 a := ⟨j 0, eq_ix1 j⟩
  have hm : a.val < m := by
    have e : (0 : Nat) + n ≤ m := hsl.2 (0 : Fin 1)
    have := a.isLt
    omega
  refine (extractStridedSlice_apply _ _ hsl (ix1 a) (ix1 (⟨a.val, hm⟩ : Fin m)) (by
    intro d
    have hd : d = 0 := Subsingleton.elim _ _
    subst hd
    show a.val = 0 + a.val
    omega)).trans ?_
  exact pad_apply_of_inside _ _ _ x v hp hu _ (ix1 a) (by
    intro d
    have hd : d = 0 := Subsingleton.elim _ _
    subst hd
    show a.val = 0 + a.val * (0 + 1)
    omega)

/-- The entrywise product of two vectors of `n` entries, computed on their high-padded copies re-laid to the shape
    `t`, re-laid back and cut to the first `n` entries, is the entrywise product of the two vectors. -/
theorem mulf_through_padded_relay {n m : Nat} {t : Shape} (hi : Nat) (a b : FVec F ⟨1, ![n]⟩ φ) {u : Shape}
    (za zb : u.Idx → F φ)
    (hp : (⟨1, ![n]⟩ : Shape).Pads (![0] : Fin 1 → Nat) ![hi] ![0] ⟨1, ![m]⟩) (hu : 0 < u.numel)
    (h12 : (⟨1, ![m]⟩ : Shape).ShapeCasts t) (h21 : t.ShapeCasts ⟨1, ![m]⟩)
    (hsl : (⟨1, ![m]⟩ : Shape).Slices ![0] ⟨1, ![n]⟩) :
    extractStridedSlice ⟨1, ![n]⟩ ![0]
      (shapeCast ⟨1, ![m]⟩
        (mulf (shapeCast t (pad ⟨1, ![m]⟩ ![0] ![hi] ![0] a za hp hu) h12)
              (shapeCast t (pad ⟨1, ![m]⟩ ![0] ![hi] ![0] b zb hp hu) h12)) h21) hsl
      = mulf a b := by
  rw [shapeCast_mulf, shapeCast_shapeCast, shapeCast_shapeCast, extractStridedSlice_mulf, slice_pad_high,
    slice_pad_high]

end Cert.LibPadSlice
-- ==== Proof.LibHostLines.lean ====
/-
  The buffer contents after a line of host operations are a fold over the line, so the contents after two lines run
  one after the other are the fold of the second from the contents the first left. Generic in the signature and in the
  values.
-/
import Idealize.ShloMosaic.Lib.StableHlo.Run

namespace Cert.LibHostLines

open Idealize.ShloMosaic Idealize.ShloMosaic.StableHlo

/-- The contents after the line `l₁ ++ l₂` are the contents after `l₂` run from what `l₁` left. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

end Cert.LibHostLines
-- ==== Proof.KernelValue.lean ====
/-
  What the kernel's program returns, as one function of its argument arrays, at every float instance.

  Before the region the program looks the table up (the 256×256 map transposed and flattened, read at each of the
  30,000,000 column indices, an index outside the table answering a fixed word): call the result `looked`. It then
  pads the values and `looked` at the high end to 30,408,704 entries and re-lays both as [237568, 128]; the region
  multiplies the two arrays entry by entry; after it the product is re-laid flat and cut back to its first 30,000,000
  entries, which are  vals(e) · looked(e) : the padding entries were multiplied too and are thrown away. The rest is the
  sum into bins: entry `e` is added into bin  idx_row(e)  of 131072 bins that start at zero, the bins are multiplied
  by one and re-laid as [1024, 128]. The lookup and the sum into bins are carried as they stand; only the product in
  the middle is opened.
-/
import proofs.«182078_j86792699117905_1_alg».proof.Proof.ProductArray
import proofs.«182078_j86792699117905_1_alg».proof.Proof.LibPadSlice
import proofs.«182078_j86792699117905_1_alg».proof.Proof.LibHostLines

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The host lines up to the lookup's result: the transpose, the flattening, and the lookup's own operations. -/
abbrev lookupLines : List (HloOp τ sig (Elt F)) := hostOps0 ++ hostOps0_1
/-- The host lines between the lookup and the region: the two paddings and the two re-layings. -/
abbrev paddingLines : List (HloOp τ sig (Elt F)) := hostOps0_2 ++ hostOps0_3 ++ hostOps0_4 ++ hostOps0_5 ++ hostOps0_6

theorem lines_split : List.flatten [hostOps0, hostOps0_1, hostOps0_2, hostOps0_3, hostOps0_4, hostOps0_5, hostOps0_6]
    = (lookupLines ++ paddingLines : List (HloOp τ sig (Elt F))) := rfl

/-- The table looked up at the column indices, as the lookup's lines leave it. -/
def looked (c : Dev nD) : FVec F S30000000 .f32 :=
  after lookupLines (fun b => m (c, b)) (Proc.devRef .tc main_v2)

/-- The sum into bins of a vector of 30,000,000 contributions by their row indices, times one, as [1024, 128]. -/
def binned (contrib : FVec F S30000000 .f32) (rows : IVec S30000000 32) : FVec F S1024x128 .f32 :=
  shapeCast S1024x128
    (mulf (Host.scatterAdd scatter_S131072_S30000000x1_S30000000_n_0_0_1
        (broadcastInDim S131072 ![] bcast_S_S131072 (constant S_ .f32 0x00000000#32))
        (broadcastInDim S30000000x1 ![0] bcast_S30000000_S30000000x1_0 rows) contrib)
      (broadcastInDim S131072 ![] bcast_S_S131072 (constant S_ .f32 0x3F800000#32)))
    shapeCasts_S131072_S1024x128

/-- The region's first input array: the values, padded at the high end and re-laid. -/
theorem values_array (c : Dev nD) :
    V m c main_v5 = shapeCast S237568x128 (pad S30408704 ![0] ![408704] ![0] (m ((c : Thread nD τ).loc main_arg3))
      (sitofp .f32 (constantI S_ 32 0#32)) pads_S30000000_S30408704_04087040 h_S_) shapeCasts_S30408704_S237568x128 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The region's second input array: the looked-up vector, padded at the high end and re-laid. -/
theorem looked_array (c : Dev nD) :
    V m c main_v6 = shapeCast S237568x128 (pad S30408704 ![0] ![408704] ![0] (looked m c)
      (sitofp .f32 (constantI S_ 32 0#32)) pads_S30000000_S30408704_04087040 h_S_) shapeCasts_S30408704_S237568x128 := by
  dsimp only [V, V0]
  rw [lines_split, Cert.LibHostLines.after_append]
  unfold looked
  generalize after lookupLines (fun b => m (c, b)) = W
  simp only [paddingLines, hostOps0_2, hostOps0_3, hostOps0_4, hostOps0_5, hostOps0_6, List.append_nil, List.cons_append,
    List.nil_append]
  after_results
  rfl

/-- The product on the padded, re-laid operands, re-laid back and cut to the 30,000,000 real entries, is the product
    of the operands. -/
theorem cut_product (a b : FVec F S30000000 .f32) (za zb : S_.Idx → F .f32) :
    extractStridedSlice S30000000 ![0]
      (shapeCast S30408704
        (mulf (shapeCast S237568x128 (pad S30408704 ![0] ![408704] ![0] a za pads_S30000000_S30408704_04087040 h_S_) shapeCasts_S30408704_S237568x128)
              (shapeCast S237568x128 (pad S30408704 ![0] ![408704] ![0] b zb pads_S30000000_S30408704_04087040 h_S_) shapeCasts_S30408704_S237568x128))
        shapeCasts_S237568x128_S30408704) slices_S30408704_S30000000_0
      = mulf a b :=
  Cert.LibPadSlice.mulf_through_padded_relay 408704 a b za zb pads_S30000000_S30408704_04087040 h_S_
    shapeCasts_S30408704_S237568x128 shapeCasts_S237568x128_S30408704 slices_S30408704_S30000000_0

/-- The region's output array when the lines after the region start: the product of the two input arrays. -/
theorem output_array (c : Dev nD) :
    Pipeline.withArrays (cfgs 0).spec c (V0 m c) (fun w => (dats m 0 c).arrAt w (cfgs 0).N) (Proc.devRef .tc main_v7)
      = mulf (shapeCast S237568x128 (pad S30408704 ![0] ![408704] ![0] (m ((c : Thread nD τ).loc main_arg3))
            (sitofp .f32 (constantI S_ 32 0#32)) pads_S30000000_S30408704_04087040 h_S_) shapeCasts_S30408704_S237568x128)
          (shapeCast S237568x128 (pad S30408704 ![0] ![408704] ![0] (looked m c)
            (sitofp .f32 (constantI S_ 32 0#32)) pads_S30000000_S30408704_04087040 h_S_) shapeCasts_S30408704_S237568x128) :=
  (Pipeline.withArrays_arr spec0 launch0.win.arr_inj c _ _ 2).trans
    ((Cert.KernelIdeal.ProductArray.product_array m c).trans (by rw [values_array, looked_array]; rfl))

/-- The row indices when the lines after the region start: as launched. -/
theorem rows_kept (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The program's result: the products  vals · looked  summed into bins by the row indices. -/
theorem result_eq (c : Dev nD) :
    Pipeline.afterTail₀ cfgs (dats m) 0 (V0 m) [hostOps1] c main_v15
      = binned (mulf (m ((c : Thread nD τ).loc main_arg3)) (looked m c)) (m ((c : Thread nD τ).loc main_arg1)) := by
  unfold Pipeline.afterTail₀
  show StableHlo.after hostOps1 _ (Proc.devRef .tc main_v15) = _
  after_results
  rw [output_array, rows_kept]
  exact congrArg (fun x => binned x (m ((c : Thread nD τ).loc main_arg1))) (cut_product _ _ _ _)

/-- The kernel's run read back: every weakly fair execution terminates with the result at the binned products and
    the arguments unchanged. -/
theorem run : θ_run defs (onTc (τ := τ) (main (F := F))) ⟨m, fun _ => 0, ρ⟩ fun r => ∀ c : Dev nD,
      r.2.mem ((c.tc : Thread nD τ).loc main_v15)
        = binned (mulf (m ((c : Thread nD τ).loc main_arg3)) (looked m c)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v15 (Pipeline.mem_restRefs_of main_v15 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KernelValue

end
-- ==== Proof.ReferenceRun.lean ====
/-
  The reference's run, read back. The reference is a straight line of host operations: the table (the 256×256 map
  transposed and flattened) looked up at the 30,000,000 column indices (an index outside the table answering a fixed
  word) — call the result `looked` —, the entrywise product  vals · looked , and the sum into bins: entry `e` is added
  into bin  idx_row(e)  of 131072 bins that start at zero, the bins are multiplied by one and re-laid as [1024, 128].
  Every weakly fair execution terminates with the result at that term of the arguments and the arguments unchanged.
  The lookup and the sum into bins are carried as they stand.
-/
import proofs.«182078_j86792699117905_1_alg».proof.Proof.Gen.ReferenceIdeal
import proofs.«182078_j86792699117905_1_alg».proof.Proof.LibHostLines
import Idealize.ShloMosaic.Lib.StableHlo.Run

noncomputable section

namespace Cert.ReferenceIdeal.ReferenceRun

open Cert.ReferenceIdeal Cert.ReferenceIdeal.Gen Idealize.ShloMosaic Idealize.ShloMosaic.TcCoe Idealize.SL.Sem
open Idealize.ShloMosaic.StableHlo

variable {F : FTy → Type} [FloatOps F]

/-- The lines up to the lookup's result: the transpose, the flattening, and the lookup's own operations (its inner
    select listed at its call). -/
abbrev lookupLines : List (HloOp τ sig (Elt F)) :=
  [ unary main_arg0 main_v0 ((transpose S256x256 [1, 0] · transposes_S256x256_S256x256_1_0) : (⟨S256x256, .f32⟩ : BufTy).Contents (Elt F) → (⟨S256x256, .f32⟩ : BufTy).Contents (Elt F)),
    reshape main_v0 main_v1 rfl shapeCasts_S256x256_S65536,
    TRef.nullary main_call0.c (constantI S_ 32 0#32),
    TRef.unary main_call0.c main_call0.v0 (broadcastInDim S30000000 ![] bcast_S_S30000000),
    TRef.binary (.of main_arg2 : TRef sig ⟨S30000000, .i32⟩) main_call0.v0 main_call0.v1 (cmpi .slt),
    TRef.nullary main_call0.c_0 (constantI S_ 32 65536#32),
    TRef.unary main_call0.c_0 main_call0.v2 (broadcastInDim S30000000 ![] bcast_S_S30000000),
    TRef.binary (.of main_arg2 : TRef sig ⟨S30000000, .i32⟩) main_call0.v2 main_call0.v3 addi,
    TRef.ternary main_call0.v1 main_call0.v3 (.of main_arg2 : TRef sig ⟨S30000000, .i32⟩) main_call0.call0.v0 select,
    TRef.unary main_call0.call0.v0 main_call0.v5 (broadcastInDim S30000000x1 ![0] bcast_S30000000_S30000000x1_0),
    TRef.nullary main_call0.c_1 (constantI S1 32 65535#32),
    TRef.nullary main_call0.c_2 (constantI S_ 32 0#32),
    TRef.unary main_call0.c_2 main_call0.v6 (broadcastInDim S30000000x1 ![] bcast_S_S30000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S30000000x1 ![0, 1] bcast_S1x1_S30000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S30000000x1_S30000000_d1 h_S_),
    TRef.binary (.of main_v1 : TRef sig ⟨S65536, .f32⟩) main_call0.v5 main_call0.v13 (fun x i => Host.gather gather_S65536_S30000000x1_S30000000_n_0_n_n_0_1_1 x i),
    TRef.nullary main_call0.cst (constant S_ .f32 0x7FC00000#32),
    TRef.unary main_call0.cst main_call0.v14 (broadcastInDim S30000000 ![] bcast_S_S30000000),
    TRef.ternary main_call0.v12 main_call0.v13 main_call0.v14 main_call0.v15 select ]

/-- The lines after the lookup: the product and the sum into bins. -/
abbrev binLines : List (HloOp τ sig (Elt F)) :=
  [ binary main_arg3 main_v2 main_v3 (mulf : (⟨S30000000, .f32⟩ : BufTy).Contents (Elt F) → (⟨S30000000, .f32⟩ : BufTy).Contents (Elt F) → (⟨S30000000, .f32⟩ : BufTy).Contents (Elt F)),
    nullary main_cst (constant S_ .f32 0x00000000#32),
    unary main_cst main_v4 (broadcastInDim S131072 ![] bcast_S_S131072 : (⟨S_, .f32⟩ : BufTy).Contents (Elt F) → (⟨S131072, .f32⟩ : BufTy).Contents (Elt F)),
    unary main_arg1 main_v5 (broadcastInDim S30000000x1 ![0] bcast_S30000000_S30000000x1_0 : (⟨S30000000, .i32⟩ : BufTy).Contents (Elt F) → (⟨S30000000x1, .i32⟩ : BufTy).Contents (Elt F)),
    ternary main_v4 main_v5 main_v3 main_v6 ((fun x i u => Host.scatterAdd scatter_S131072_S30000000x1_S30000000_n_0_0_1 x i u) : (⟨S131072, .f32⟩ : BufTy).Contents (Elt F) → (⟨S30000000x1, .i32⟩ : BufTy).Contents (Elt F) → (⟨S30000000, .f32⟩ : BufTy).Contents (Elt F) → (⟨S131072, .f32⟩ : BufTy).Contents (Elt F)),
    nullary main_cst_0 (constant S_ .f32 0x3F800000#32),
    unary main_cst_0 main_v7 (broadcastInDim S131072 ![] bcast_S_S131072 : (⟨S_, .f32⟩ : BufTy).Contents (Elt F) → (⟨S131072, .f32⟩ : BufTy).Contents (Elt F)),
    binary main_v6 main_v7 main_v8 (mulf : (⟨S131072, .f32⟩ : BufTy).Contents (Elt F) → (⟨S131072, .f32⟩ : BufTy).Contents (Elt F) → (⟨S131072, .f32⟩ : BufTy).Contents (Elt F)),
    reshape main_v8 main_v9 rfl shapeCasts_S131072_S1024x128 ]

/-- The program's operations, in order. -/
abbrev lines : List (HloOp τ sig (Elt F)) := lookupLines ++ binLines

-- thirty-three binds re-associated
set_option maxRecDepth 4096 in
/-- The program is that straight line: the two outlined functions unfolded at their calls and sequencing
    re-associated, both sides are one chain of host steps. -/
theorem main_eq (c : Dev nD) : main (F := F) c = seq lines := by
  simp only [main, fn_take.body, fn_where.body, lines, lookupLines, binLines, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem lines_sub : (lines : List (HloOp τ sig (Elt F))).Forall fun op => op.bufs ⊆ tcRefs τ sig := by
  simp only [lines, lookupLines, binLines, List.cons_append, List.nil_append, List.Forall]
  exact ⟨unary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., nullary_bufs_sub .., unary_bufs_sub .., ternary_bufs_sub ..,
    binary_bufs_sub .., nullary_bufs_sub .., unary_bufs_sub .., unary_bufs_sub .., ternary_bufs_sub ..,
    nullary_bufs_sub .., unary_bufs_sub .., binary_bufs_sub .., reshape_bufs_sub ..⟩

/-- The table looked up at the column indices, as the lookup's lines leave it. -/
def looked (m : (ℓ : Loc nD τ sig) → Buf (Elt F) ℓ) (c : Dev nD) : FVec F S30000000 .f32 :=
  after lookupLines (launchContents m c) (Proc.devRef .tc main_v2)

/-- The sum into bins of a vector of 30,000,000 contributions by their row indices, times one, as [1024, 128]. -/
def binned (contrib : FVec F S30000000 .f32) (rows : IVec S30000000 32) : FVec F S1024x128 .f32 :=
  shapeCast S1024x128
    (mulf (Host.scatterAdd scatter_S131072_S30000000x1_S30000000_n_0_0_1
        (broadcastInDim S131072 ![] bcast_S_S131072 (constant S_ .f32 0x00000000#32))
        (broadcastInDim S30000000x1 ![0] bcast_S30000000_S30000000x1_0 rows) contrib)
      (broadcastInDim S131072 ![] bcast_S_S131072 (constant S_ .f32 0x3F800000#32)))
    shapeCasts_S131072_S1024x128

variable (m : (ℓ : Loc nD τ sig) → Buf (Elt F) ℓ) (ρ : Dev nD → PrngReg)

/-- The lookup's lines write none of the arguments. -/
theorem lookup_keeps_values (c : Dev nD) :
    after lookupLines (launchContents m c) (Proc.devRef .tc main_arg3) = m ((c.tc : Thread nD τ).loc main_arg3) := by
  after_results
theorem lookup_keeps_rows (c : Dev nD) :
    after lookupLines (launchContents m c) (Proc.devRef .tc main_arg1) = m ((c.tc : Thread nD τ).loc main_arg1) := by
  after_results

/-- The program's result: the products  vals · looked  summed into bins by the row indices. -/
theorem result_eq (c : Dev nD) :
    after lines (launchContents m c) (Proc.devRef .tc main_v9)
      = binned (mulf (m ((c.tc : Thread nD τ).loc main_arg3)) (looked m c)) (m ((c.tc : Thread nD τ).loc main_arg1)) := by
  have e3 := lookup_keeps_values m c
  have e1 := lookup_keeps_rows m c
  show after (lookupLines ++ binLines) _ _ = _
  rw [Cert.LibHostLines.after_append]
  unfold looked
  generalize after lookupLines (launchContents m c) = W at e3 e1 ⊢
  after_results
  rw [e3, e1]
  rfl

/-- An argument is written by no line. -/
theorem kept0 (c : Dev nD) : after lines (launchContents m c) (Proc.devRef .tc main_arg0) = m ((c.tc : Thread nD τ).loc main_arg0) := by
  simp only [lines, lookupLines, binLines, List.cons_append, List.nil_append]; after_results
theorem kept1 (c : Dev nD) : after lines (launchContents m c) (Proc.devRef .tc main_arg1) = m ((c.tc : Thread nD τ).loc main_arg1) := by
  simp only [lines, lookupLines, binLines, List.cons_append, List.nil_append]; after_results
theorem kept2 (c : Dev nD) : after lines (launchContents m c) (Proc.devRef .tc main_arg2) = m ((c.tc : Thread nD τ).loc main_arg2) := by
  simp only [lines, lookupLines, binLines, List.cons_append, List.nil_append]; after_results
theorem kept3 (c : Dev nD) : after lines (launchContents m c) (Proc.devRef .tc main_arg3) = m ((c.tc : Thread nD τ).loc main_arg3) := by
  simp only [lines, lookupLines, binLines, List.cons_append, List.nil_append]; after_results

/-- The reference's run read back: every weakly fair execution terminates with the result at the binned products
    and the arguments unchanged. -/
theorem run : θ_run defs (onTc (τ := τ) (main (F := F))) ⟨m, fun _ => 0, ρ⟩ fun r => ∀ c : Dev nD,
      r.2.mem ((c.tc : Thread nD τ).loc main_v9)
        = binned (mulf (m ((c.tc : Thread nD τ).loc main_arg3)) (looked m c)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v9).trans (result_eq m c),
      (h c main_arg0).trans (kept0 m c), (h c main_arg1).trans (kept1 m c),
      (h c main_arg2).trans (kept2 m c), (h c main_arg3).trans (kept3 m c)⟩)
    (run_seq scopedRefs_eq scopedSems_eq defs main (fun _ => lines) main_eq (fun _ => lines_sub) m ρ)

end Cert.ReferenceIdeal.ReferenceRun

end
-- ==== Proof.SameResult.lean ====
/-
  The two programs compute one function. Both return  binned (vals · looked) idx_row : the table looked up at the
  column indices, multiplied entry by entry with the values, summed into bins by the row indices. The kernel's program
  takes the product on padded, re-laid copies inside its region and cuts the padding off again (Proof/KernelValue.lean);
  the reference takes it in one host operation (Proof/ReferenceRun.lean). What is left to compare is that the lookup and
  the sum into bins are spelt the same in both programs: the same operations in the same order with the same literals,
  over buffers of the two programs' own signatures — so from memories that agree on the arguments they are the same
  terms. No law of arithmetic is used, and no input need be finite.
-/
import proofs.«182078_j86792699117905_1_alg».proof.Defs
import proofs.«182078_j86792699117905_1_alg».proof.Proof.KernelValue
import proofs.«182078_j86792699117905_1_alg».proof.Proof.ReferenceRun
import proofs.«182078_j86792699117905_1_alg».proof.Proof.Gen.Pre_finite_inputs

set_option maxRecDepth 16384

noncomputable section

namespace Cert.Proof.SameResult

open Idealize.ShloMosaic Idealize.ShloMosaic.TcCoe Idealize.SL.Sem Idealize.ShloMosaic.StableHlo

variable {F : FTy → Type} [FloatOps F]

/-- The two programs state the same scatter: the same dimension numbers. -/
theorem scatter_same : Cert.ReferenceIdeal.scatter_S131072_S30000000x1_S30000000_n_0_0_1
    = Cert.KernelIdeal.scatter_S131072_S30000000x1_S30000000_n_0_0_1 := rfl

/-- The two programs state the same gather: the same dimension numbers. -/
theorem gather_same : Cert.ReferenceIdeal.gather_S65536_S30000000x1_S30000000_n_0_n_n_0_1_1
    = Cert.KernelIdeal.gather_S65536_S30000000x1_S30000000_n_0_n_n_0_1_1 := rfl

/-- The sum into bins is one function in the two programs. -/
theorem binned_same (x : FVec F Cert.KernelIdeal.S30000000 .f32) (r : IVec Cert.KernelIdeal.S30000000 32) :
    Cert.ReferenceIdeal.ReferenceRun.binned x r = Cert.KernelIdeal.KernelValue.binned x r := by
  unfold Cert.ReferenceIdeal.ReferenceRun.binned Cert.KernelIdeal.KernelValue.binned
  rw [scatter_same]

attribute [local irreducible] Host.gather Host.reduce in
set_option maxHeartbeats 2000000 in
/-- The lookup is one function in the two programs: from memories that agree on the map and on the column indices
    the two lines leave the same vector. -/
theorem looked_same (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.ReferenceRun.looked m' c = Cert.KernelIdeal.KernelValue.looked m c := by
  unfold Cert.ReferenceIdeal.ReferenceRun.looked Cert.KernelIdeal.KernelValue.looked
  simp only [Cert.KernelIdeal.KernelValue.lookupLines, Cert.KernelIdeal.Gen.hostOps0, Cert.KernelIdeal.Gen.hostOps0_1,
    List.cons_append, List.nil_append]
  after_results_simp
  have e0 : launchContents m' c (Proc.devRef .tc Cert.ReferenceIdeal.main_arg0)
      = m (c, Proc.devRef .tc Cert.KernelIdeal.main_arg0) := h0
  have e2 : launchContents m' c (Proc.devRef .tc Cert.ReferenceIdeal.main_arg2)
      = m (c, Proc.devRef .tc Cert.KernelIdeal.main_arg2) := h2
  rw [e0, e2, gather_same]
  rfl

/-- From memories agreeing on the arguments both programs run, end at the same [1024, 128] array, and leave their
    arguments unchanged. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.ReferenceRun.run (F := Ideal) m' ρ')
  obtain ⟨h0, h1, h2, h3⟩ := hagree c
  rw [h3, h1, looked_same m m' c h0 h2]
  exact binned_same _ _

end Cert.Proof.SameResult

end
-- ==== Proof.lean ====
/-
  The certificate of a sparse sensor response: for a 256×256 field map, 30,000,000 (row, column, value) triples and
  131072 response bins,
      response(r) = Σ over the triples e with idx_row(e) = r of  vals(e) · flat_field(idx_col(e)),
  flat_field the map transposed and flattened, the result re-laid as [1024, 128]. The kernel's program and the
  reference both look the table up on the host and sum into bins on the host; they differ only in the entrywise product
  in between, which the reference takes in one host operation and the kernel's program takes inside a region: both
  operands padded at the high end to 29 · 8192 · 128 entries and re-laid as [237568, 128], the region multiplying 8192
  rows at each of its 29 grid points, the product re-laid flat and cut back to the 30,000,000 real entries.

  * The kernel's two frames are the generated ones. The reference's frame is its run (Proof/ReferenceRun.lean) with the
    result dropped.
  * The idealization rewrote nothing, so there is nothing to preserve.
  * Equal results (Proof/SameResult.lean): the region's output array is the entrywise product of its two input arrays
    (Proof/ProductArray.lean); padding, re-laying, multiplying, re-laying back and cutting is multiplying
    (Proof/LibPadSlice.lean); the lookup and the sum into bins are the same terms in both programs. The equality holds
    on all extended reals: no input need be finite.
-/
import proofs.«182078_j86792699117905_1_alg».proof.Defs
import proofs.«182078_j86792699117905_1_alg».proof.Proof.Gen.Kernel
import proofs.«182078_j86792699117905_1_alg».proof.Proof.Gen.Kernel.Skeleton
import proofs.«182078_j86792699117905_1_alg».proof.Proof.Gen.Kernel.Launch
import proofs.«182078_j86792699117905_1_alg».proof.Proof.Gen.Kernel.Points
import proofs.«182078_j86792699117905_1_alg».proof.Proof.Gen.Kernel.Frame
import proofs.«182078_j86792699117905_1_alg».proof.Proof.Gen.KernelIdeal
import proofs.«182078_j86792699117905_1_alg».proof.Proof.Gen.KernelIdeal.Skeleton
import proofs.«182078_j86792699117905_1_alg».proof.Proof.Gen.KernelIdeal.Launch
import proofs.«182078_j86792699117905_1_alg».proof.Proof.Gen.KernelIdeal.Points
import proofs.«182078_j86792699117905_1_alg».proof.Proof.Gen.KernelIdeal.Frame
import proofs.«182078_j86792699117905_1_alg».proof.Proof.Gen.ReferenceIdeal
import proofs.«182078_j86792699117905_1_alg».proof.Proof.Gen.Pre_finite_inputs
import proofs.«182078_j86792699117905_1_alg».proof.Proof.SameResult
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ReferenceRun.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.Proof.SameResult.algebraic⟩

end Cert.Proof

end
